-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S100000x128, .f32⟩
  | .hbm, ⟨33, _⟩ => ⟨S640000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .f32⟩
  | .hbm, ⟨48, _⟩ => ⟨S_, .f32⟩
  | .hbm, ⟨49, _⟩ => ⟨S100000x128, .f32⟩
  | .hbm, ⟨50, _⟩ => ⟨S640000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x64, .f32⟩
  | .hbm, ⟨55, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.SageLayer.lean ====
/-
  One dense layer of a mean-aggregating graph convolution, as a function of its operands.

  For a row-stacked activation `a` (the neighbourhood means) and `x` (the nodes' own features), both M×K, weights
  `Wl`, `Wr`, both K×N, and a bias row `b` of length N, the layer's affine part at (p, q) is

      (∑ κ, a (p, κ) * Wl (κ, q)) + b q + ∑ κ, x (p, κ) * Wr (κ, q)

  on the extended reals. Two programs compute it: one multiplies bf16-rounded copies of the operands on the matrix unit,
  starting each product from a zero accumulator, and adds a bias held as a 1×N row broadcast down the rows; the other
  takes two host contractions of the operands as they are and adds the bias broadcast first to 1×N and then to M×N.
  Rounding to bf16 changes nothing at the extended reals, a product accumulated from zero is the plain sum over the
  contracted coordinate, and so is the host contraction; both programs therefore read, at every (p, q), the expression
  above. No law beyond the definition of the two products is used: the two sums and the bias are added in the same
  order on both sides, so nothing here needs the operands to be finite.
-/
import Idealize.ShloMosaic.PureOps.Ideal.Laws
import Idealize.ShloMosaic.Lib.ValueIdx
import Idealize.ShloMosaic.Lib.Pipeline.Value
import proofs.«126587_j19567871000655_1_alg».proof.Proof.LibPlainDot

noncomputable section

open scoped BigOperators

namespace Cert.SageLayer
open Idealize.ShloMosaic Idealize.ShloMosaic.ValueIdx Idealize.ShloMosaic.PlainDot

variable {M K N : Nat}

/-- The affine part of the layer at (p, q), the bias given as a function of the column. -/
def affineAt (a x : FVec Ideal ⟨2, ![M, K]⟩ .f32) (Wl Wr : FVec Ideal ⟨2, ![K, N]⟩ .f32) (b : Fin N → EReal)
    (p : Fin M) (q : Fin N) : EReal :=
  (∑ κ : Fin K, a (ix2 p κ) * Wl (ix2 κ q)) + b q + ∑ κ : Fin K, x (ix2 p κ) * Wr (ix2 κ q)

/-- The affine part of the layer as an M×N array. -/
def affine (a x : FVec Ideal ⟨2, ![M, K]⟩ .f32) (Wl Wr : FVec Ideal ⟨2, ![K, N]⟩ .f32) (b : Fin N → EReal) :
    FVec Ideal ⟨2, ![M, N]⟩ .f32 :=
  fun j => affineAt a x Wl Wr b (j 0) (j 1)

theorem affine_ix2 (a x : FVec Ideal ⟨2, ![M, K]⟩ .f32) (Wl Wr : FVec Ideal ⟨2, ![K, N]⟩ .f32) (b : Fin N → EReal)
    (p : Fin M) (q : Fin N) : affine a x Wl Wr b (ix2 p q) = affineAt a x Wl Wr b p q := rfl

/-- A 1×N row broadcast down M rows reads, at (p, q), the row's entry q. -/
theorem rowBroadcast_ix2 (b : FVec Ideal ⟨2, ![1, N]⟩ .f32) (h : (⟨2, ![1, N]⟩ : Shape).Broadcasts ⟨2, ![M, N]⟩)
    (p : Fin M) (q : Fin N) : broadcastTo ⟨2, ![M, N]⟩ b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split_ifs with hN
    · have := q.isLt; omega
    · rfl

/-- The affine part at (p, q) reads only row p of the two activations, column q of the two weight matrices and entry q
    of the bias: operands that agree there give the same value, whatever their sizes elsewhere. -/
theorem affineAt_congr {M' : Nat} (a x : FVec Ideal ⟨2, ![M, K]⟩ .f32) (a' x' : FVec Ideal ⟨2, ![M', K]⟩ .f32)
    (Wl Wr Wl' Wr' : FVec Ideal ⟨2, ![K, N]⟩ .f32) (b b' : Fin N → EReal) (p : Fin M) (p' : Fin M') (q q' : Fin N)
    (ha : ∀ κ : Fin K, a (ix2 p κ) = a' (ix2 p' κ)) (hx : ∀ κ : Fin K, x (ix2 p κ) = x' (ix2 p' κ))
    (hl : ∀ κ : Fin K, Wl (ix2 κ q) = Wl' (ix2 κ q')) (hr : ∀ κ : Fin K, Wr (ix2 κ q) = Wr' (ix2 κ q'))
    (hb : b q = b' q') :
    affineAt a x Wl Wr b p q = affineAt a' x' Wl' Wr' b' p' q' := by
  unfold affineAt
  simp only [ha, hx, hl, hr, hb]

/-- THE MATRIX-UNIT FORM: two products of bf16-rounded operands, each accumulated from zero, with the bias row
    broadcast down the rows added between them, read at (p, q). -/
theorem unit_form_ix2 (d : DotDims ⟨2, ![M, K]⟩ ⟨2, ![K, N]⟩ ⟨2, ![M, N]⟩) (hd : IsPlain d)
    (hbits : FTy.bf16.bits < FTy.f32.bits) (hb : (⟨2, ![1, N]⟩ : Shape).Broadcasts ⟨2, ![M, N]⟩)
    (a x : FVec Ideal ⟨2, ![M, K]⟩ .f32) (Wl Wr : FVec Ideal ⟨2, ![K, N]⟩ .f32) (b : FVec Ideal ⟨2, ![1, N]⟩ .f32)
    (p : Fin M) (q : Fin N) :
    addf (addf (matmul d none (truncf .bf16 a hbits) (truncf .bf16 Wl hbits) (constant ⟨2, ![M, N]⟩ .f32 0x00000000#32))
        (broadcastTo ⟨2, ![M, N]⟩ b hb))
      (matmul d none (truncf .bf16 x hbits) (truncf .bf16 Wr hbits) (constant ⟨2, ![M, N]⟩ .f32 0x00000000#32)) (ix2 p q)
    = affineAt a x Wl Wr (fun q => b (ix2 0 q)) p q := by
  rw [addf_apply, addf_apply, rowBroadcast_ix2]
  show FloatOps.matmul d none (truncf .bf16 a hbits) (truncf .bf16 Wl hbits) (constant ⟨2, ![M, N]⟩ .f32 0x00000000#32) (ix2 p q)
      + b (ix2 0 q)
      + FloatOps.matmul d none (truncf .bf16 x hbits) (truncf .bf16 Wr hbits) (constant ⟨2, ![M, N]⟩ .f32 0x00000000#32) (ix2 p q) = _
  rw [matmul_zero_plain d hd, matmul_zero_plain d hd]
  rfl

/-- THE HOST FORM: two host contractions of the operands as they are, with the bias broadcast to 1×N and then to M×N
    added between them, read at (p, q). -/
theorem host_form_ix2 (d : DotDims ⟨2, ![M, K]⟩ ⟨2, ![K, N]⟩ ⟨2, ![M, N]⟩) (hd : IsPlain d)
    (h1 : (⟨1, ![N]⟩ : Shape).BroadcastsInDim ⟨2, ![1, N]⟩ ![1])
    (h2 : (⟨2, ![1, N]⟩ : Shape).BroadcastsInDim ⟨2, ![M, N]⟩ ![0, 1])
    (a x : FVec Ideal ⟨2, ![M, K]⟩ .f32) (Wl Wr : FVec Ideal ⟨2, ![K, N]⟩ .f32) (b : FVec Ideal ⟨1, ![N]⟩ .f32)
    (p : Fin M) (q : Fin N) :
    addf (addf (Host.dotGeneral d none a Wl)
        (broadcastInDim ⟨2, ![M, N]⟩ ![0, 1] h2 (broadcastInDim ⟨2, ![1, N]⟩ ![1] h1 b)))
      (Host.dotGeneral d none x Wr) (ix2 p q)
    = affineAt a x Wl Wr (fun q => b (ix1 q)) p q := by
  rw [addf_apply, addf_apply]
  have hbias : broadcastInDim ⟨2, ![M, N]⟩ ![0, 1] h2 (broadcastInDim ⟨2, ![1, N]⟩ ![1] h1 b) (ix2 p q) = b (ix1 q) := by
    refine (broadcastInDim_apply ![0, 1] h2 _ (ix2 p q) (ix2 0 q) fun a => ?_).trans
      (broadcastInDim_apply ![1] h1 b (ix2 0 q) (ix1 q) fun a => ?_)
    · match a with
      | ⟨0, _⟩ => exact (if_pos rfl).symm
      | ⟨1, _⟩ =>
        show q.val = if N = 1 then 0 else q.val
        split_ifs with hN
        · have := q.isLt; omega
        · rfl
    · match a with
      | ⟨0, _⟩ =>
        show q.val = if N = 1 then 0 else q.val
        split_ifs with hN
        · have := q.isLt; omega
        · rfl
  rw [hbias]
  show FloatOps.dotGeneral d none .single a Wl (ix2 p q) + b (ix1 q) + FloatOps.dotGeneral d none .single x Wr (ix2 p q) = _
  rw [dotGeneral_plain d hd, dotGeneral_plain d hd]
  rfl

/-- A bias vector reshaped to a 1×N row is read, at (0, q), at q. -/
theorem biasRow_ix2 (b : FVec Ideal ⟨1, ![N]⟩ .f32) (h : (⟨1, ![N]⟩ : Shape).ShapeCasts ⟨2, ![1, N]⟩) (q : Fin N) :
    shapeCast ⟨2, ![1, N]⟩ b h (ix2 0 q) = b (ix1 q) := by
  refine (shapeCast_addUnit_apply (n := 1) ![N] b h (ix2 0 q)).trans (congrArg b ?_)
  funext a
  match a with
  | ⟨0, _⟩ => rfl

end Cert.SageLayer

end
-- ==== Proof.PointValue.lean ====
/-
  What each of the two kernel bodies stores, entry by entry.

  A body loads one 5000-row block of the neighbourhood means and of the nodes' features, the two weight matrices and the
  bias row, and stores one 5000-row block of the layer's output. Read at row p and column q of the block, the stored
  value is the layer's affine part of the loaded blocks at (p, q) — the first layer's body then takes the maximum with
  zero, the second layer's stores it as it is.
-/
import proofs.«126587_j19567871000655_1_alg».proof.Proof.Gen.KernelIdeal.Skeleton
import proofs.«126587_j19567871000655_1_alg».proof.Proof.SageLayer

noncomputable section

namespace Cert.KernelIdeal.PointValue
open Idealize.ShloMosaic Idealize.ShloMosaic.ValueIdx Idealize.ShloMosaic.PlainDot
open Cert.KernelIdeal Cert.KernelIdeal.Gen Cert.SageLayer

/-- The first layer's contraction is a plain 5000×128 by 128×128 product. -/
theorem plain128 : IsPlain dot_S5000x128_S128x128_S5000x128_1_0_0_1_n_n := ⟨rfl, rfl, rfl, rfl, rfl, rfl⟩

/-- The second layer's contraction is a plain 5000×128 by 128×64 product. -/
theorem plain64 : IsPlain dot_S5000x128_S128x64_S5000x64_1_0_0_1_n_n := ⟨rfl, rfl, rfl, rfl, rfl, rfl⟩

/-- The first layer's stored block at (p, q): the affine part of the loaded blocks, clamped below at zero. -/
theorem layer1_ix2 (a x : Vec Ideal S5000x128 .f32) (Wl Wr : Vec Ideal S128x128 .f32) (b : Vec Ideal S1x128 .f32)
    (p : Fin 5000) (q : Fin 128) :
    k0_pay1 (F := Ideal) a x Wl Wr b (ix2 p q)
      = max (affineAt a x Wl Wr (fun q => b (ix2 0 q)) p q) (Ideal.ofBits .f32 0x00000000#32) := by
  unfold k0_pay1
  simp only [shapeCast_self]
  rw [maximumf_apply]
  exact congrArg₂ max (unit_form_ix2 _ plain128 _ _ a x Wl Wr b p q) rfl

/-- The second layer's stored block at (p, q): the affine part of the loaded blocks. -/
theorem layer2_ix2 (a x : Vec Ideal S5000x128 .f32) (Wl Wr : Vec Ideal S128x64 .f32) (b : Vec Ideal S1x64 .f32)
    (p : Fin 5000) (q : Fin 64) :
    k1_pay1 (F := Ideal) a x Wl Wr b (ix2 p q) = affineAt a x Wl Wr (fun q => b (ix2 0 q)) p q := by
  unfold k1_pay1
  simp only [shapeCast_self]
  exact unit_form_ix2 _ plain64 _ _ a x Wl Wr b p q

end Cert.KernelIdeal.PointValue

end
-- ==== Proof.LayerArray1.lean ====
/-
  The first layer's output array after its pallas_call, as one function of the arrays the call finds.

  The call walks 20 grid points; point t reads rows 5000 t … 5000 t + 4999 of the means and of the features, the whole
  weight matrices and bias row, and writes back rows 5000 t … 5000 t + 4999 of the output. Each written block is the
  clamped affine part of the rows it read, so the 20 blocks, which tile the 100000 rows, are the restrictions of ONE
  array: at (r, q) the clamped affine part of row r of the means and features.
-/
import proofs.«126587_j19567871000655_1_alg».proof.Proof.Gen.KernelIdeal.Frame
import proofs.«126587_j19567871000655_1_alg».proof.Proof.PointValue

set_option maxRecDepth 16384

noncomputable section

namespace Cert.KernelIdeal.Layer1
open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageLayer Cert.KernelIdeal.PointValue

variable (V : (c : Dev nD) → (b : Ref sig .tc) → Buf (Elt Ideal) ((c : Thread nD τ).loc b))

theorem hz : (![0, 0] : Fin 2 → Nat) = fun _ => 0 := funext fun a => by fin_cases a <;> rfl

/-- The layer's output as an array: the affine part of the operands, clamped below at zero. -/
def out (a x : FVec Ideal S100000x128 .f32) (Wl Wr : FVec Ideal S128x128 .f32) (b : FVec Ideal S1x128 .f32) :
    FVec Ideal S100000x128 .f32 :=
  fun i => max (affine a x Wl Wr (fun q => b (ix2 0 q)) i) (Ideal.ofBits .f32 0x00000000#32)

/-- The stored block at any index of the block. -/
theorem stored_apply (a x : Vec Ideal S5000x128 .f32) (Wl Wr : Vec Ideal S128x128 .f32) (b : Vec Ideal S1x128 .f32)
    (y : S5000x128.Idx) :
    k0_pay1 (F := Ideal) a x Wl Wr b y
      = max (affineAt a x Wl Wr (fun q => b (ix2 0 q)) (y 0) (y 1)) (Ideal.ofBits .f32 0x00000000#32) := by
  exact (congrArg (k0_pay1 (F := Ideal) a x Wl Wr b) (eq_ix2 y)).trans (layer1_ix2 a x Wl Wr b (y 0) (y 1))

/-- The printed index maps over the grid: the row-blocked windows sit at row-block t, the whole ones at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed_eq (c : Dev nD) (t : Fin cfg0.N) :
    (dat0 V c).flushed 5 t = ((cfg0.win 5).blk t).view.read (Elt Ideal)
      (out (V c main_v22) (V c main_arg0) (V c main_arg2) (V c main_arg4) (V c main_v23)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  refine (stored_apply (iblk0 V c 0 t) (iblk0 V c 1 t) (iblk0 V c 2 t) (iblk0 V c 4 t) (iblk0 V c 3 t)
    ((win0 5).xinj (grid0.coords t) j)).trans ?_
  show _ = max (affineAt (V c main_v22) (V c main_arg0) (V c main_arg2) (V c main_arg4) (fun q => V c main_v23 (ix2 0 q))
    ((((cfg0.win 5).blk t).view.emb j) 0) ((((cfg0.win 5).blk t).view.emb j) 1)) (Ideal.ofBits .f32 0x00000000#32)
  obtain ⟨e00, e01, e10, e11, e20, e21, e30, e31, e40, e41, e50, e51⟩ := idx_facts t
  refine congrArg₂ max (affineAt_congr _ _ _ _ _ _ _ _ _ _ _ _ _ _ ?_ ?_ ?_ ?_ ?_) rfl
  · intro κ
    show V c main_v22 (((cfg0.win 0).blk t).view.emb (ix2 ((win0 5).xinj (grid0.coords t) j 0) κ)) = _
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * κ.val = κ.val; omega
  · intro κ
    show V c main_arg0 (((cfg0.win 1).blk t).view.emb (ix2 ((win0 5).xinj (grid0.coords t) j 0) κ)) = _
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * κ.val = κ.val; omega
  · intro κ
    show V c main_arg2 (((cfg0.win 2).blk t).view.emb (ix2 κ ((win0 5).xinj (grid0.coords t) j 1))) = _
    refine congrArg (V c main_arg2) (funext fun a => Fin.ext ?_)
    match a with
    | ⟨0, _⟩ => show win0_2.index t (0 : Fin 2) * 128 + 1 * κ.val = κ.val; omega
    | ⟨1, _⟩ => show win0_2.index t (1 : Fin 2) * 128 + 1 * (j 1).val = win0_5.index t (1 : Fin 2) * 128 + 1 * (j 1).val; omega
  · intro κ
    show V c main_arg4 (((cfg0.win 4).blk t).view.emb (ix2 κ ((win0 5).xinj (grid0.coords t) j 1))) = _
    refine congrArg (V c main_arg4) (funext fun a => Fin.ext ?_)
    match a with
    | ⟨0, _⟩ => show win0_4.index t (0 : Fin 2) * 128 + 1 * κ.val = κ.val; omega
    | ⟨1, _⟩ => show win0_4.index t (1 : Fin 2) * 128 + 1 * (j 1).val = win0_5.index t (1 : Fin 2) * 128 + 1 * (j 1).val; omega
  · show V c main_v23 (((cfg0.win 3).blk t).view.emb (ix2 0 ((win0 5).xinj (grid0.coords t) j 1))) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every row-block of the output is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The 20 blocks tile the array: row r is in the block of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the call: the clamped affine part of the arrays the call found, at every index. -/
theorem final (c : Dev nD) :
    (dat0 V c).arrAt 5 cfg0.N = out (V c main_v22) (V c main_arg0) (V c main_arg2) (V c main_arg4) (V c main_v23) :=
  (dat0 V c).arrAt_eq_of_cover 5 _ (fun t _ => flushed_eq V c t) cover

end Cert.KernelIdeal.Layer1

end
-- ==== Proof.LayerArray2.lean ====
/-
  The second layer's output array after its pallas_call, as one function of the arrays the call finds.

  As in the first layer, point t of the 20 reads rows 5000 t … 5000 t + 4999 of the means and of the hidden features, the
  whole 128×64 weight matrices and the 1×64 bias row, and writes back the same rows of the 100000×64 output. Each
  written block is the affine part of the rows it read, with no clamp, so the blocks are the restrictions of ONE
  array: at (r, q) the affine part of row r of the means and hidden features.
-/
import proofs.«126587_j19567871000655_1_alg».proof.Proof.Gen.KernelIdeal.Frame
import proofs.«126587_j19567871000655_1_alg».proof.Proof.PointValue

set_option maxRecDepth 16384

noncomputable section

namespace Cert.KernelIdeal.Layer2
open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageLayer Cert.KernelIdeal.PointValue

variable (V : (c : Dev nD) → (b : Ref sig .tc) → Buf (Elt Ideal) ((c : Thread nD τ).loc b))

theorem hz : (![0, 0] : Fin 2 → Nat) = fun _ => 0 := funext fun a => by fin_cases a <;> rfl

/-- The layer's output as an array: the affine part of the operands. -/
def out (a x : FVec Ideal S100000x128 .f32) (Wl Wr : FVec Ideal S128x64 .f32) (b : FVec Ideal S1x64 .f32) :
    FVec Ideal S100000x64 .f32 :=
  affine a x Wl Wr (fun q => b (ix2 0 q))

/-- The stored block at any index of the block. -/
theorem stored_apply (a x : Vec Ideal S5000x128 .f32) (Wl Wr : Vec Ideal S128x64 .f32) (b : Vec Ideal S1x64 .f32)
    (y : S5000x64.Idx) :
    k1_pay1 (F := Ideal) a x Wl Wr b y = affineAt a x Wl Wr (fun q => b (ix2 0 q)) (y 0) (y 1) :=
  (congrArg (k1_pay1 (F := Ideal) a x Wl Wr b) (eq_ix2 y)).trans (layer2_ix2 a x Wl Wr b (y 0) (y 1))

/-- The printed index maps over the grid: the row-blocked windows sit at row-block t, the whole ones at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer's array of the arrays the call found. -/
theorem flushed_eq (c : Dev nD) (t : Fin cfg1.N) :
    (dat1 V c).flushed 5 t = ((cfg1.win 5).blk t).view.read (Elt Ideal)
      (out (V c main_v36) (V c main_v24) (V c main_arg5) (V c main_arg7) (V c main_v37)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  refine (stored_apply (iblk1 V c 0 t) (iblk1 V c 1 t) (iblk1 V c 2 t) (iblk1 V c 4 t) (iblk1 V c 3 t)
    ((win1 5).xinj (grid1.coords t) j)).trans ?_
  show _ = affineAt (V c main_v36) (V c main_v24) (V c main_arg5) (V c main_arg7) (fun q => V c main_v37 (ix2 0 q))
    ((((cfg1.win 5).blk t).view.emb j) 0) ((((cfg1.win 5).blk t).view.emb j) 1)
  obtain ⟨e00, e01, e10, e11, e20, e21, e30, e31, e40, e41, e50, e51⟩ := idx_facts t
  refine affineAt_congr _ _ _ _ _ _ _ _ _ _ _ _ _ _ ?_ ?_ ?_ ?_ ?_
  · intro κ
    show V c main_v36 (((cfg1.win 0).blk t).view.emb (ix2 ((win1 5).xinj (grid1.coords t) j 0) κ)) = _
    refine congrArg (V c main_v36) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * κ.val = κ.val; omega
  · intro κ
    show V c main_v24 (((cfg1.win 1).blk t).view.emb (ix2 ((win1 5).xinj (grid1.coords t) j 0) κ)) = _
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * κ.val = κ.val; omega
  · intro κ
    show V c main_arg5 (((cfg1.win 2).blk t).view.emb (ix2 κ ((win1 5).xinj (grid1.coords t) j 1))) = _
    refine congrArg (V c main_arg5) (funext fun a => Fin.ext ?_)
    match a with
    | ⟨0, _⟩ => show win1_2.index t (0 : Fin 2) * 128 + 1 * κ.val = κ.val; omega
    | ⟨1, _⟩ => show win1_2.index t (1 : Fin 2) * 64 + 1 * (j 1).val = win1_5.index t (1 : Fin 2) * 64 + 1 * (j 1).val; omega
  · intro κ
    show V c main_arg7 (((cfg1.win 4).blk t).view.emb (ix2 κ ((win1 5).xinj (grid1.coords t) j 1))) = _
    refine congrArg (V c main_arg7) (funext fun a => Fin.ext ?_)
    match a with
    | ⟨0, _⟩ => show win1_4.index t (0 : Fin 2) * 128 + 1 * κ.val = κ.val; omega
    | ⟨1, _⟩ => show win1_4.index t (1 : Fin 2) * 64 + 1 * (j 1).val = win1_5.index t (1 : Fin 2) * 64 + 1 * (j 1).val; omega
  · show V c main_v37 (((cfg1.win 3).blk t).view.emb (ix2 0 ((win1 5).xinj (grid1.coords t) j 1))) = _
    refine congrArg (V c main_v37) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v38).slice (win1_5.rect t)).set ↔ _
  rw [View.set_slice_whole, Rect.mem_set_unit]
  exact Iff.rfl

/-- Every row-block of the output is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The 20 blocks tile the array: row r is in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY after the call: the affine part of the arrays the call found, at every index. -/
theorem final (c : Dev nD) :
    (dat1 V c).arrAt 5 cfg1.N = out (V c main_v36) (V c main_v24) (V c main_arg5) (V c main_arg7) (V c main_v37) :=
  (dat1 V c).arrAt_eq_of_cover 5 _ (fun t _ => flushed_eq V c t) cover

end Cert.KernelIdeal.Layer2

end
-- ==== Proof.KernelWhole.lean ====
/-
  The kernel program's result as one function of the argument arrays.

  The program computes, on the host, each node's in-degree clamped below at one and, per layer, the mean of the
  features gathered along the edges — a gather by the source row (negative indices wrapped by the number of nodes), a
  scatter-add by the destination row into zeros, a division by the clamped degree — and hands that mean, with the
  features, weights and bias, to the layer's pallas_call. The two calls' output arrays are known as functions of the
  arrays each call finds; followed back through the two host stretches to the launch memory they give the result as
  the second layer of the mean of the first layer's clamped output.
-/
import proofs.«126587_j19567871000655_1_alg».proof.Proof.Gen.KernelIdeal.Frame
import proofs.«126587_j19567871000655_1_alg».proof.Proof.LayerArray1
import proofs.«126587_j19567871000655_1_alg».proof.Proof.LayerArray2
import Idealize.ShloMosaic.Lib.StableHlo.Run

set_option maxRecDepth 16384

noncomputable section

namespace Cert.KernelIdeal.Whole
open Idealize.ShloMosaic Idealize.ShloMosaic.TcCoe Idealize.ShloMosaic.ValueIdx Idealize.SL.Sem Idealize.ShloMosaic.StableHlo
open Cert.KernelIdeal Cert.KernelIdeal.Gen Cert.SageLayer

/-! ## The host side, over plain arrays -/

/-- The edges' source row. -/
def srcRow (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000

/-- The edges' destination row. -/
def dstRow (e : (⟨S2x640000, .i32⟩ : BufTy).Contents (Elt Ideal)) : (⟨S640000, .i32⟩ : BufTy).Contents (Elt Ideal) :=
  shapeCast _ (extractStridedSlice S1x640000 ![1, 0] e slices_S2x640000_S1x640000_1_0) shapeCasts_S1x640000_S640000

/-- Each node's in-degree (ones scattered by destination into zeros), clamped below at one, as a column. -/
def degCol (dst : (⟨S640000, .i32⟩ : BufTy).Contents (Elt Ideal)) : (⟨S100000x1, .f32⟩ : BufTy).Contents (Elt Ideal) :=
  broadcastInDim S100000x1 ![0] bcast_S100000_S100000x1_0
    (maximumf
      (Host.scatterAdd (F := Ideal) scatter_S100000_S640000x1_S640000_n_0_0_1
        (broadcastInDim S100000 ![] bcast_S_S100000 (constant (F := Ideal) S_ .f32 0x00000000#32))
        (broadcastInDim S640000x1 ![0] bcast_S640000_S640000x1_0 dst)
        (broadcastInDim S640000 ![] bcast_S_S640000 (constant (F := Ideal) S_ .f32 0x3F800000#32)))
      (broadcastInDim S100000 ![] bcast_S_S100000 (constant (F := Ideal) S_ .f32 0x3F800000#32)))

/-- The mean over in-neighbours of the rows of `x`: gathered by source (a negative index wrapped by the number of
    nodes), scatter-added by destination into zeros, divided by the degree column broadcast along the rows. -/
def meanOver (src dst : (⟨S640000, .i32⟩ : BufTy).Contents (Elt Ideal)) (deg : (⟨S100000x1, .f32⟩ : BufTy).Contents (Elt Ideal))
    (x : (⟨S100000x128, .f32⟩ : BufTy).Contents (Elt Ideal)) : (⟨S100000x128, .f32⟩ : BufTy).Contents (Elt Ideal) :=
  Host.divf (F := Ideal)
    (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (Host.gather gather_S100000x128_S640000x1_S640000x128_1_0_n_n_0_1_1128 x
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))
    (broadcastInDim S100000x128 ![0, 1] bcast_S100000x1_S100000x128_0_1 deg)

/-- The mean aggregation of `x` along the edges `e`. -/
def meanAgg (e : (⟨S2x640000, .i32⟩ : BufTy).Contents (Elt Ideal)) (x : (⟨S100000x128, .f32⟩ : BufTy).Contents (Elt Ideal)) :
    (⟨S100000x128, .f32⟩ : BufTy).Contents (Elt Ideal) :=
  meanOver (srcRow e) (dstRow e) (degCol (dstRow e)) x

/-- The first layer's output: the clamped affine part of the aggregated and the own features. -/
def hidden (x : (⟨S100000x128, .f32⟩ : BufTy).Contents (Elt Ideal)) (e : (⟨S2x640000, .i32⟩ : BufTy).Contents (Elt Ideal))
    (W1l : (⟨S128x128, .f32⟩ : BufTy).Contents (Elt Ideal)) (b1 : (⟨S128, .f32⟩ : BufTy).Contents (Elt Ideal))
    (W1r : (⟨S128x128, .f32⟩ : BufTy).Contents (Elt Ideal)) : (⟨S100000x128, .f32⟩ : BufTy).Contents (Elt Ideal) :=
  Layer1.out (meanAgg e x) x W1l W1r (shapeCast S1x128 b1 shapeCasts_S128_S1x128)

/-- The program's result: the second layer's affine part of the aggregated and the own hidden features. -/
def result (x : (⟨S100000x128, .f32⟩ : BufTy).Contents (Elt Ideal)) (e : (⟨S2x640000, .i32⟩ : BufTy).Contents (Elt Ideal))
    (W1l : (⟨S128x128, .f32⟩ : BufTy).Contents (Elt Ideal)) (b1 : (⟨S128, .f32⟩ : BufTy).Contents (Elt Ideal))
    (W1r : (⟨S128x128, .f32⟩ : BufTy).Contents (Elt Ideal))
    (W2l : (⟨S128x64, .f32⟩ : BufTy).Contents (Elt Ideal)) (b2 : (⟨S64, .f32⟩ : BufTy).Contents (Elt Ideal))
    (W2r : (⟨S128x64, .f32⟩ : BufTy).Contents (Elt Ideal)) : (⟨S100000x64, .f32⟩ : BufTy).Contents (Elt Ideal) :=
  Layer2.out (meanAgg e (hidden x e W1l b1 W1r)) (hidden x e W1l b1 W1r) W2l W2r (shapeCast S1x64 b2 shapeCasts_S64_S1x64)

/-! ## The two host stretches, from any contents -/

section Stretches
variable (U : Valuation τ sig (Elt Ideal))

theorem src_after0 : after hostOps0 U (Proc.devRef .tc main_v1) = srcRow (U (Proc.devRef .tc main_arg1)) := by
  after_results_simp <;> rfl
theorem dst_after0 : after hostOps0 U (Proc.devRef .tc main_v3) = dstRow (U (Proc.devRef .tc main_arg1)) := by
  after_results_simp <;> rfl
theorem deg_after0 : after hostOps0 U (Proc.devRef .tc main_v10) = degCol (dstRow (U (Proc.devRef .tc main_arg1))) := by
  after_results_simp <;> rfl
theorem mean_after0 : after hostOps0 U (Proc.devRef .tc main_v22)
    = meanAgg (U (Proc.devRef .tc main_arg1)) (U (Proc.devRef .tc main_arg0)) := by
  after_results_simp <;> rfl
theorem bias_after0 : after hostOps0 U (Proc.devRef .tc main_v23)
    = shapeCast S1x128 (U (Proc.devRef .tc main_arg3)) shapeCasts_S128_S1x128 := by
  after_results_simp <;> rfl
theorem arg0_after0 : after hostOps0 U (Proc.devRef .tc main_arg0) = U (Proc.devRef .tc main_arg0) := by
  after_results_simp <;> rfl
theorem arg2_after0 : after hostOps0 U (Proc.devRef .tc main_arg2) = U (Proc.devRef .tc main_arg2) := by
  after_results_simp <;> rfl
theorem arg4_after0 : after hostOps0 U (Proc.devRef .tc main_arg4) = U (Proc.devRef .tc main_arg4) := by
  after_results_simp <;> rfl
theorem arg5_after0 : after hostOps0 U (Proc.devRef .tc main_arg5) = U (Proc.devRef .tc main_arg5) := by
  after_results_simp <;> rfl
theorem arg6_after0 : after hostOps0 U (Proc.devRef .tc main_arg6) = U (Proc.devRef .tc main_arg6) := by
  after_results_simp <;> rfl
theorem arg7_after0 : after hostOps0 U (Proc.devRef .tc main_arg7) = U (Proc.devRef .tc main_arg7) := by
  after_results_simp <;> rfl

theorem mean_after1 : after hostOps1 U (Proc.devRef .tc main_v36)
    = meanOver (U (Proc.devRef .tc main_v1)) (U (Proc.devRef .tc main_v3)) (U (Proc.devRef .tc main_v10)) (U (Proc.devRef .tc main_v24)) := by
  after_results_simp <;> rfl
theorem bias_after1 : after hostOps1 U (Proc.devRef .tc main_v37)
    = shapeCast S1x64 (U (Proc.devRef .tc main_arg6)) shapeCasts_S64_S1x64 := by
  after_results_simp <;> rfl
theorem hidden_after1 : after hostOps1 U (Proc.devRef .tc main_v24) = U (Proc.devRef .tc main_v24) := by
  after_results_simp <;> rfl
theorem arg5_after1 : after hostOps1 U (Proc.devRef .tc main_arg5) = U (Proc.devRef .tc main_arg5) := by
  after_results_simp <;> rfl
theorem arg7_after1 : after hostOps1 U (Proc.devRef .tc main_arg7) = U (Proc.devRef .tc main_arg7) := by
  after_results_simp <;> rfl

end Stretches

/-! ## The run's last contents at the result array -/

variable (m : (ℓ : Loc nD τ sig) → Buf (Elt Ideal) ℓ) (ρ : Dev nD → PrngReg)

/-- The first call's output array, from the launch memory. -/
theorem hidden_eq (c : Dev nD) : W2 m ρ c (Proc.devRef .tc main_v24)
    = hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  have r0 : W2 m ρ c (Proc.devRef .tc main_v24)
      = Layer1.out (V1 m ρ c main_v22) (V1 m ρ c main_arg0) (V1 m ρ c main_arg2) (V1 m ρ c main_arg4) (V1 m ρ c main_v23) :=
    (W2_arr m ρ c 5).trans (Layer1.final (V1 m ρ) c)
  have a22 : V1 m ρ c main_v22 = meanAgg (m ((c.tc : Thread nD τ).loc main_arg1)) (m ((c.tc : Thread nD τ).loc main_arg0)) :=
    mean_after0 (W0 m ρ c)
  have a23 : V1 m ρ c main_v23 = shapeCast S1x128 (m ((c.tc : Thread nD τ).loc main_arg3)) shapeCasts_S128_S1x128 :=
    bias_after0 (W0 m ρ c)
  have a0 : V1 m ρ c main_arg0 = m ((c.tc : Thread nD τ).loc main_arg0) := arg0_after0 (W0 m ρ c)
  have a2 : V1 m ρ c main_arg2 = m ((c.tc : Thread nD τ).loc main_arg2) := arg2_after0 (W0 m ρ c)
  have a4 : V1 m ρ c main_arg4 = m ((c.tc : Thread nD τ).loc main_arg4) := arg4_after0 (W0 m ρ c)
  rw [r0, a22, a23, a0, a2, a4]
  rfl

/-- THE RESULT ARRAY at the run's last contents: the program's function of the argument arrays. -/
theorem result_eq (c : Dev nD) : W4 m ρ c (Proc.devRef .tc main_v38)
    = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  have r1 : W4 m ρ c (Proc.devRef .tc main_v38)
      = Layer2.out (V3 m ρ c main_v36) (V3 m ρ c main_v24) (V3 m ρ c main_arg5) (V3 m ρ c main_arg7) (V3 m ρ c main_v37) :=
    (W4_arr m ρ c 5).trans (Layer2.final (V3 m ρ) c)
  have b36 : V3 m ρ c main_v36 = meanOver (W2 m ρ c (Proc.devRef .tc main_v1)) (W2 m ρ c (Proc.devRef .tc main_v3))
      (W2 m ρ c (Proc.devRef .tc main_v10)) (W2 m ρ c (Proc.devRef .tc main_v24)) := mean_after1 (W2 m ρ c)
  have b37 : V3 m ρ c main_v37 = shapeCast S1x64 (W2 m ρ c (Proc.devRef .tc main_arg6)) shapeCasts_S64_S1x64 := bias_after1 (W2 m ρ c)
  have b24 : V3 m ρ c main_v24 = W2 m ρ c (Proc.devRef .tc main_v24) := hidden_after1 (W2 m ρ c)
  have b5 : V3 m ρ c main_arg5 = W2 m ρ c (Proc.devRef .tc main_arg5) := arg5_after1 (W2 m ρ c)
  have b7 : V3 m ρ c main_arg7 = W2 m ρ c (Proc.devRef .tc main_arg7) := arg7_after1 (W2 m ρ c)
  have w1 : W2 m ρ c (Proc.devRef .tc main_v1) = srcRow (m ((c.tc : Thread nD τ).loc main_arg1)) :=
    (W2_of_ne m ρ c main_v1 (by decide)).trans (src_after0 (W0 m ρ c))
  have w3 : W2 m ρ c (Proc.devRef .tc main_v3) = dstRow (m ((c.tc : Thread nD τ).loc main_arg1)) :=
    (W2_of_ne m ρ c main_v3 (by decide)).trans (dst_after0 (W0 m ρ c))
  have w10 : W2 m ρ c (Proc.devRef .tc main_v10) = degCol (dstRow (m ((c.tc : Thread nD τ).loc main_arg1))) :=
    (W2_of_ne m ρ c main_v10 (by decide)).trans (deg_after0 (W0 m ρ c))
  have w5 : W2 m ρ c (Proc.devRef .tc main_arg5) = m ((c.tc : Thread nD τ).loc main_arg5) :=
    (W2_of_ne m ρ c main_arg5 (by decide)).trans (arg5_after0 (W0 m ρ c))
  have w6 : W2 m ρ c (Proc.devRef .tc main_arg6) = m ((c.tc : Thread nD τ).loc main_arg6) :=
    (W2_of_ne m ρ c main_arg6 (by decide)).trans (arg6_after0 (W0 m ρ c))
  have w7 : W2 m ρ c (Proc.devRef .tc main_arg7) = m ((c.tc : Thread nD τ).loc main_arg7) :=
    (W2_of_ne m ρ c main_arg7 (by decide)).trans (arg7_after0 (W0 m ρ c))
  rw [r1, b36, b37, b24, b5, b7, w1, w3, w10, w5, w6, w7, hidden_eq m ρ c]
  rfl

end Cert.KernelIdeal.Whole

end
-- ==== Proof.RefWhole.lean ====
/-
  The reference program's result is the same function of the argument arrays.

  The reference computes the same host aggregation and, for each layer, two host contractions of the whole
  100000-row arrays with the bias broadcast between them (and, for the first layer, the maximum with zero). At every
  (r, q) that is the layer's affine part of row r — the array the kernel's pallas_call leaves — so the reference's
  composed term is the kernel program's function, term by term.
-/
import proofs.«126587_j19567871000655_1_alg».proof.Proof.Gen.ReferenceIdeal.Run
import proofs.«126587_j19567871000655_1_alg».proof.Proof.KernelWhole

set_option maxRecDepth 16384

noncomputable section

namespace Cert.ReferenceIdeal.Whole
open Idealize.ShloMosaic Idealize.ShloMosaic.TcCoe Idealize.ShloMosaic.ValueIdx Idealize.ShloMosaic.PlainDot Idealize.SL.Sem
open Cert.ReferenceIdeal Cert.ReferenceIdeal.Facts₀ Cert.SageLayer

/-- The first layer's host contraction is a plain 100000×128 by 128×128 product. -/
theorem plain128 : IsPlain dot_S100000x128_S128x128_S100000x128_1_0_0_1_n_n := ⟨rfl, rfl, rfl, rfl, rfl, rfl⟩

/-- The second layer's host contraction is a plain 100000×128 by 128×64 product. -/
theorem plain64 : IsPlain dot_S100000x128_S128x64_S100000x64_1_0_0_1_n_n := ⟨rfl, rfl, rfl, rfl, rfl, rfl⟩

/-- The first layer in its host form is the array the first pallas_call leaves. -/
theorem layer1_host (a x : FVec Ideal S100000x128 .f32) (Wl Wr : FVec Ideal S128x128 .f32) (b : FVec Ideal S128 .f32) :
    maximumf
      (addf
        (addf (Host.dotGeneral dot_S100000x128_S128x128_S100000x128_1_0_0_1_n_n none a Wl)
          (broadcastInDim S100000x128 ![0, 1] bcast_S1x128_S100000x128_0_1 (broadcastInDim S1x128 ![1] bcast_S128_S1x128_1 b)))
        (Host.dotGeneral dot_S100000x128_S128x128_S100000x128_1_0_0_1_n_n none x Wr))
      (broadcastInDim S100000x128 ![] bcast_S_S100000x128 (constant (F := Ideal) S_ .f32 0x00000000#32))
    = Cert.KernelIdeal.Layer1.out a x Wl Wr
        (shapeCast Cert.KernelIdeal.S1x128 b Cert.KernelIdeal.Facts₀.shapeCasts_S128_S1x128) := by
  funext i
  obtain ⟨p, q, rfl⟩ : ∃ (p : Fin 100000) (q : Fin 128), i = ix2 p q := ⟨i 0, i 1, eq_ix2 i⟩
  rw [maximumf_apply, host_form_ix2 _ plain128]
  refine congrArg₂ max ?_ rfl
  exact congrArg (fun b' => affineAt a x Wl Wr b' p q) (funext fun q' => (biasRow_ix2 b _ q').symm)

/-- The second layer in its host form is the array the second pallas_call leaves. -/
theorem layer2_host (a x : FVec Ideal S100000x128 .f32) (Wl Wr : FVec Ideal S128x64 .f32) (b : FVec Ideal S64 .f32) :
    addf
      (addf (Host.dotGeneral dot_S100000x128_S128x64_S100000x64_1_0_0_1_n_n none a Wl)
        (broadcastInDim S100000x64 ![0, 1] bcast_S1x64_S100000x64_0_1 (broadcastInDim S1x64 ![1] bcast_S64_S1x64_1 b)))
      (Host.dotGeneral dot_S100000x128_S128x64_S100000x64_1_0_0_1_n_n none x Wr)
    = Cert.KernelIdeal.Layer2.out a x Wl Wr
        (shapeCast Cert.KernelIdeal.S1x64 b Cert.KernelIdeal.Facts₀.shapeCasts_S64_S1x64) := by
  funext i
  obtain ⟨p, q, rfl⟩ : ∃ (p : Fin 100000) (q : Fin 64), i = ix2 p q := ⟨i 0, i 1, eq_ix2 i⟩
  rw [host_form_ix2 _ plain64]
  exact congrArg (fun b' => affineAt a x Wl Wr b' p q) (funext fun q' => (biasRow_ix2 b _ q').symm)

/-- THE REFERENCE'S RESULT: the kernel program's function of the same argument arrays. -/
theorem result_eq (m : (ℓ : Loc nD τ sig) → Buf (Elt Ideal) ℓ) (c : Dev nD) :
    Cert.ReferenceIdeal.Value.res_out0 (F := Ideal) m c
      = Cert.KernelIdeal.Whole.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_out0 Cert.ReferenceIdeal.Value.res_main_v54
  rw [layer2_host, layer1_host]
  rfl

end Cert.ReferenceIdeal.Whole

end
-- ==== Proof.lean ====
/-
  Two layers of a mean-aggregating graph convolution on 100000 nodes and 640000 edges: the program that runs each
  layer's dense part as a pallas_call, against the plain host program.

  Both programs aggregate on the host in the same way: each node's in-degree, clamped below at one; per layer, the rows
  of the current features gathered along the edges' sources (a negative index wrapped by the number of nodes),
  scatter-added into zeros by the edges' destinations and divided by the clamped degree. They differ in the dense part
  of a layer, mean · Wl + b + x · Wr (clamped below at zero after the first layer). The kernel program walks the rows
  in 20 blocks of 5000; a block's body rounds its operands to bf16, multiplies on the matrix unit from a zero
  accumulator, adds the bias row broadcast down the block and the second product, and stores the block. The host
  program contracts the whole 100000-row arrays and adds the bias broadcast to the full shape.

  At the extended reals rounding is the identity and both kinds of product are the plain sum over the contracted
  coordinate, so at every row r and column q both programs hold
      (∑ κ, mean (r, κ) · Wl (κ, q)) + b q + ∑ κ, x (r, κ) · Wr (κ, q),
  the three terms added in the same order: no algebraic law is needed beyond the two products' definitions, and the
  finiteness of the inputs is never used. The blocks tile the rows, so each call's output array is that expression of
  the arrays the call finds; the host aggregation between the calls is the same term in both programs. The result of
  either program is therefore one function of the eight argument arrays.

  The kernel program's idealization rewrote no operation, so there is nothing to preserve. The two kernel programs'
  runs are the generated frames; the kernel program's run with its result named repeats the generated frame's launch
  with one more array read at the end; the host program's run is its generated run.
-/
import proofs.«126587_j19567871000655_1_alg».proof.Defs
import proofs.«126587_j19567871000655_1_alg».proof.Proof.Gen.Kernel
import proofs.«126587_j19567871000655_1_alg».proof.Proof.Gen.Kernel.Frame
import proofs.«126587_j19567871000655_1_alg».proof.Proof.Gen.KernelIdeal
import proofs.«126587_j19567871000655_1_alg».proof.Proof.Gen.KernelIdeal.Frame
import proofs.«126587_j19567871000655_1_alg».proof.Proof.Gen.ReferenceIdeal
import proofs.«126587_j19567871000655_1_alg».proof.Proof.Gen.Pre_finite_inputs
import proofs.«126587_j19567871000655_1_alg».proof.Proof.Gen.ReferenceIdeal.Run
import proofs.«126587_j19567871000655_1_alg».proof.Proof.ResultRun
import proofs.«126587_j19567871000655_1_alg».proof.Proof.KernelWhole
import proofs.«126587_j19567871000655_1_alg».proof.Proof.RefWhole
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The host program runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at ONE function of the
    argument arrays: the second layer of the aggregated first layer. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    exact (Cert.ReferenceIdeal.Whole.result_eq m' c).trans (by rw [h0, h1, h2, h3, h4, h5, h6, h7])

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
